-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  main_v3
-- ==== Kernel.lean ====
abbrev S8000000x3 : Shape := ⟨2, ![8000000, 3]⟩
abbrev S3x8000000 : Shape := ⟨2, ![3, 8000000]⟩
abbrev S_ : Shape := ⟨0, ![]⟩
abbrev S3x8126464 : Shape := ⟨2, ![3, 8126464]⟩
abbrev S3x63488x128 : Shape := ⟨3, ![3, 63488, 128]⟩
abbrev S63488x128 : Shape := ⟨2, ![63488, 128]⟩
abbrev S3x2048x128 : Shape := ⟨3, ![3, 2048, 128]⟩
abbrev S2048x128 : Shape := ⟨2, ![2048, 128]⟩
abbrev S1x2048x128 : Shape := ⟨3, ![1, 2048, 128]⟩
abbrev S8126464 : Shape := ⟨1, ![8126464]⟩
abbrev S400x400 : Shape := ⟨2, ![400, 400]⟩
abbrev S8126464x1 : Shape := ⟨2, ![8126464, 1]⟩
abbrev S8126464x2 : Shape := ⟨2, ![8126464, 2]⟩

abbrev nBuf : Space → Nat
  | .hbm => 32
  | .vmem => 8
  | .smem => 0
  | _ => 0

abbrev bufTy : (tb : Table) → Fin (tcTables nBuf tb) → BufTy
  | .hbm, ⟨0, _⟩ => ⟨S8000000x3, .f32⟩
  | .hbm, ⟨1, _⟩ => ⟨S3x8000000, .f32⟩
  | .hbm, ⟨2, _⟩ => ⟨S_, .i32⟩
  | .hbm, ⟨3, _⟩ => ⟨S_, .f32⟩
  | .hbm, ⟨4, _⟩ => ⟨S3x8126464, .f32⟩
  | .hbm, ⟨5, _⟩ => ⟨S3x63488x128, .f32⟩
  | .hbm, ⟨6, _⟩ => ⟨S63488x128, .i32⟩
  | .hbm, ⟨7, _⟩ => ⟨S63488x128, .i32⟩
  | .hbm, ⟨8, _⟩ => ⟨S63488x128, .f32⟩
  | .hbm, ⟨9, _⟩ => ⟨S8126464, .i32⟩
  | .hbm, ⟨10, _⟩ => ⟨S8126464, .i32⟩
  | .hbm, ⟨11, _⟩ => ⟨S8126464, .f32⟩
  | .hbm, ⟨12, _⟩ => ⟨S_, .f32⟩
  | .hbm, ⟨13, _⟩ => ⟨S400x400, .f32⟩
  | .hbm, ⟨14, _⟩ => ⟨S_, .i32⟩
  | .hbm, ⟨15, _⟩ => ⟨S8126464, .i32⟩
  | .hbm, ⟨16, _⟩ => ⟨S8126464, .i1⟩
  | .hbm, ⟨17, _⟩ => ⟨S_, .i32⟩
  | .hbm, ⟨18, _⟩ => ⟨S8126464, .i32⟩
  | .hbm, ⟨19, _⟩ => ⟨S8126464, .i32⟩
  | .hbm, ⟨20, _⟩ => ⟨S8126464, .i32⟩
  | .hbm, ⟨21, _⟩ => ⟨S_, .i32⟩
  | .hbm, ⟨22, _⟩ => ⟨S8126464, .i32⟩
  | .hbm, ⟨23, _⟩ => ⟨S8126464, .i1⟩
  | .hbm, ⟨24, _⟩ => ⟨S_, .i32⟩
  | .hbm, ⟨25, _⟩ => ⟨S8126464, .i32⟩
  | .hbm, ⟨26, _⟩ => ⟨S8126464, .i32⟩
  | .hbm, ⟨27, _⟩ => ⟨S8126464, .i32⟩
  | .hbm, ⟨28, _⟩ => ⟨S8126464x1, .i32⟩
  | .hbm, ⟨29, _⟩ => ⟨S8126464x1, .i32⟩
  | .hbm, ⟨30, _⟩ => ⟨S8126464x2, .i32⟩
  | .hbm, ⟨31, _⟩ => ⟨S400x400, .f32⟩
  | .local _ .vmem, ⟨0, _⟩ => ⟨S3x2048x128, .f32⟩
  | .local _ .vmem, ⟨1, _⟩ => ⟨S3x2048x128, .f32⟩
  | .local _ .vmem, ⟨2, _⟩ => ⟨S2048x128, .i32⟩
  | .local _ .vmem, ⟨3, _⟩ => ⟨S2048x128, .i32⟩
  | .local _ .vmem, ⟨4, _⟩ => ⟨S2048x128, .i32⟩
  | .local _ .vmem, ⟨5, _⟩ => ⟨S2048x128, .i32⟩
  | .local _ .vmem, ⟨6, _⟩ => ⟨S2048x128, .f32⟩
  | .local _ .vmem, ⟨7, _⟩ => ⟨S2048x128, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![31], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8000000x3_S3x8000000_1_0 : S8000000x3.Transposes [1, 0] S3x8000000
  pads_S3x8000000_S3x8126464_000_01264640 : S3x8000000.Pads (![0, 0] : Fin 2 → Nat) ![0, 126464] ![0, 0] S3x8126464
  h_S_ : 0 < S_.numel
  shapeCasts_S3x8126464_S3x63488x128 : S3x8126464.ShapeCasts S3x63488x128
  inb_S3x2048x128_S1x2048x128_0_0_0 : ∀ a, (![0, 0, 0] : Fin 3 → Nat) a + S1x2048x128.size a ≤ S3x2048x128.size a
  h_S1x2048x128 : 0 < S1x2048x128.numel
  shapeCasts_S1x2048x128_S2048x128 : S1x2048x128.ShapeCasts S2048x128
  inb_S3x2048x128_S1x2048x128_1_0_0 : ∀ a, (![1, 0, 0] : Fin 3 → Nat) a + S1x2048x128.size a ≤ S3x2048x128.size a
  inb_S3x2048x128_S1x2048x128_2_0_0 : ∀ a, (![2, 0, 0] : Fin 3 → Nat) a + S1x2048x128.size a ≤ S3x2048x128.size a
  natLt_1_32 : 1 < 32
  inb_S2048x128_S2048x128_0_0 : ∀ a, (![0, 0] : Fin 2 → Nat) a + S2048x128.size a ≤ S2048x128.size a
  h_S2048x128 : 0 < S2048x128.numel
  shapeCasts_S63488x128_S8126464 : S63488x128.ShapeCasts S8126464
  bcast_S_S400x400 : S_.BroadcastsInDim S400x400 (![] : Fin 0 → Fin S400x400.rank)
  bcast_S_S8126464 : S_.BroadcastsInDim S8126464 (![] : Fin 0 → Fin S8126464.rank)
  bcast_S8126464_S8126464x1_0 : S8126464.BroadcastsInDim S8126464x1 (![0] : Fin 1 → Fin S8126464x1.rank)
  concatenates_S8126464x1_S8126464x1_S8126464x2_d1 : Shape.Concatenates [S8126464x1, S8126464x1] S8126464x2 1
  scatter_S400x400_S8126464x2_S8126464_n_01_01_1_wf : ScatterDims.WF S400x400 S8126464x2 S8126464 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048x128.size a ≤ S3x63488x128.size a
  hwx0_0 : ∀ i : grid0.Coords, EltTy.bits .f32 = 32 ∨ (Rect.block (s := S3x63488x128) S3x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S63488x128.size a
  hwx0_1 : ∀ i : grid0.Coords, EltTy.bits .i32 = 32 ∨ (Rect.block (s := S63488x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S63488x128.size a
  hwx0_2 : ∀ i : grid0.Coords, EltTy.bits .i32 = 32 ∨ (Rect.block (s := S63488x128) S2048x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S63488x128.size a
  hwx0_3 : ∀ i : grid0.Coords, EltTy.bits .f32 = 32 ∨ (Rect.block (s := S63488x128) S2048x128.size (cc0_transform_3 i) (hinb0_3 i)).WholeWords (EltTy.packing .f32)

variable [Facts₀]

def scatter_S400x400_S8126464x2_S8126464_n_01_01_1 : ScatterDims S400x400 S8126464x2 S8126464 where
  updateWindowDims := []
  insertedWindowDims := [0, 1]
  scatterDimsToOperandDims := [0, 1]
  indexVectorDim := 1
  wf := scatter_S400x400_S8126464x2_S8126464_n_01_01_1_wf

abbrev win0_0 : Pipeline.Window sig grid0 :=
  Pipeline.Window.ofSpec (Memref.whole main_v2) S3x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S2048x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_2) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩
abbrev S400x400 : Shape := ⟨2, ![400, 400]⟩
abbrev S8000000x2 : Shape := ⟨2, ![8000000, 2]⟩

abbrev nBuf : Space → Nat
  | .hbm => 84
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000, .f32⟩
  | .hbm, ⟨6, _⟩ => ⟨S8000000x1, .f32⟩
  | .hbm, ⟨7, _⟩ => ⟨S8000000, .f32⟩
  | .hbm, ⟨8, _⟩ => ⟨S_, .f32⟩
  | .hbm, ⟨9, _⟩ => ⟨S8000000, .f32⟩
  | .hbm, ⟨10, _⟩ => ⟨S8000000, .i1⟩
  | .hbm, ⟨11, _⟩ => ⟨S_, .f32⟩
  | .hbm, ⟨12, _⟩ => ⟨S8000000, .f32⟩
  | .hbm, ⟨13, _⟩ => ⟨S8000000, .i1⟩
  | .hbm, ⟨14, _⟩ => ⟨S8000000, .i1⟩
  | .hbm, ⟨15, _⟩ => ⟨S_, .f32⟩
  | .hbm, ⟨16, _⟩ => ⟨S8000000, .f32⟩
  | .hbm, ⟨17, _⟩ => ⟨S8000000, .f32⟩
  | .hbm, ⟨18, _⟩ => ⟨S_, .f32⟩
  | .hbm, ⟨19, _⟩ => ⟨S8000000, .f32⟩
  | .hbm, ⟨20, _⟩ => ⟨S8000000, .f32⟩
  | .hbm, ⟨21, _⟩ => ⟨S8000000, .f32⟩
  | .hbm, ⟨22, _⟩ => ⟨S8000000, .i32⟩
  | .hbm, ⟨23, _⟩ => ⟨S_, .f32⟩
  | .hbm, ⟨24, _⟩ => ⟨S8000000, .f32⟩
  | .hbm, ⟨25, _⟩ => ⟨S8000000, .f32⟩
  | .hbm, ⟨26, _⟩ => ⟨S_, .f32⟩
  | .hbm, ⟨27, _⟩ => ⟨S8000000, .f32⟩
  | .hbm, ⟨28, _⟩ => ⟨S8000000, .f32⟩
  | .hbm, ⟨29, _⟩ => ⟨S8000000, .f32⟩
  | .hbm, ⟨30, _⟩ => ⟨S8000000, .i32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i1⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i1⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i1⟩
  | .hbm, ⟨45, _⟩ => ⟨S8000000, .i1⟩
  | .hbm, ⟨46, _⟩ => ⟨S8000000, .i1⟩
  | .hbm, ⟨47, _⟩ => ⟨S8000000, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S8000000, .i32⟩
  | .hbm, ⟨52, _⟩ => ⟨S8000000, .i32⟩
  | .hbm, ⟨53, _⟩ => ⟨S_, .i32⟩
  | .hbm, ⟨54, _⟩ => ⟨S8000000, .i32⟩
  | .hbm, ⟨55, _⟩ => ⟨S8000000, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S8000000, .i32⟩
  | .hbm, ⟨60, _⟩ => ⟨S8000000, .i32⟩
  | .hbm, ⟨61, _⟩ => ⟨S_, .i32⟩
  | .hbm, ⟨62, _⟩ => ⟨S8000000, .i32⟩
  | .hbm, ⟨63, _⟩ => ⟨S8000000, .i32⟩
  | .hbm, ⟨64, _⟩ => ⟨S_, .f32⟩
  | .hbm, ⟨65, _⟩ => ⟨S400x400, .f32⟩
  | .hbm, ⟨66, _⟩ => ⟨S_, .i32⟩
  | .hbm, ⟨67, _⟩ => ⟨S8000000, .i32⟩
  | .hbm, ⟨68, _⟩ => ⟨S8000000, .i1⟩
  | .hbm, ⟨69, _⟩ => ⟨S_, .i32⟩
  | .hbm, ⟨70, _⟩ => ⟨S8000000, .i32⟩
  | .hbm, ⟨71, _⟩ => ⟨S8000000, .i32⟩
  | .hbm, ⟨72, _⟩ => ⟨S8000000, .i32⟩
  | .hbm, ⟨73, _⟩ => ⟨S_, .i32⟩
  | .hbm, ⟨74, _⟩ => ⟨S8000000, .i32⟩
  | .hbm, ⟨75, _⟩ => ⟨S8000000, .i1⟩
  | .hbm, ⟨76, _⟩ => ⟨S_, .i32⟩
  | .hbm, ⟨77, _⟩ => ⟨S8000000, .i32⟩
  | .hbm, ⟨78, _⟩ => ⟨S8000000, .i32⟩
  | .hbm, ⟨79, _⟩ => ⟨S8000000, .i32⟩
  | .hbm, ⟨80, _⟩ => ⟨S8000000x1, .i32⟩
  | .hbm, ⟨81, _⟩ => ⟨S8000000x1, .i32⟩
  | .hbm, ⟨82, _⟩ => ⟨S8000000x2, .i32⟩
  | .hbm, ⟨83, _⟩ => ⟨S400x400, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_c_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v37 : Ref sig .tc := ⟨.hbm, 55, rfl⟩
abbrev main_c_10 : Ref sig .tc := ⟨.hbm, 56, rfl⟩
abbrev main_c_11 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_c_14 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_15 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  bcast_S_S400x400 : S_.BroadcastsInDim S400x400 (![] : Fin 0 → Fin S400x400.rank)
  bcast_S8000000_S8000000x1_0 : S8000000.BroadcastsInDim S8000000x1 (![0] : Fin 1 → Fin S8000000x1.rank)
  concatenates_S8000000x1_S8000000x1_S8000000x2_d1 : Shape.Concatenates [S8000000x1, S8000000x1] S8000000x2 1
  scatter_S400x400_S8000000x2_S8000000_n_01_01_1_wf : ScatterDims.WF S400x400 S8000000x2 S8000000 [] [0, 1] [0, 1] 1

variable [Facts₀]

def scatter_S400x400_S8000000x2_S8000000_n_01_01_1 : ScatterDims S400x400 S8000000x2 S8000000 where
  updateWindowDims := []
  insertedWindowDims := [0, 1]
  scatterDimsToOperandDims := [0, 1]
  indexVectorDim := 1
  wf := scatter_S400x400_S8000000x2_S8000000_n_01_01_1_wf

class Facts : Prop extends Facts₀ where

variable [Facts]
-- ==== Proof.CellSpec.lean ====
/-
  The per-point mathematics of the obstacle map, stated once for both programs.

  A point (x, y, z) falls in the grid cell whose row is the round-half-even of z / 0.1 + 200 and whose column is
  the round-half-even of x / 0.1 + 200, each converted to a 32-bit integer (`rawCell`). It carries weight one when
  its negated height 0 - y lies strictly between 0 and 1 and both raw cells lie in [0, 400), and weight zero
  otherwise (`weight`). The cell actually incremented is the raw cell clipped to [0, 399] (`clipCell`) and then
  read the way a scatter reads a possibly negative index, 400 added to a negative one (`wrapCell`). The map is, at
  each cell, the sum of the weights of the points that land there (`hist`).

  Everything up to `weight` is generic in the float instance; the two facts about the extended reals that the
  comparison of the two programs needs are at the end: a point of height zero weighs nothing, and the host's
  spellings of negation and of the cast of a truth value are the kernel's.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

variable {F : FTy → Type} [FloatOps F]

/-- The raw cell of one metric coordinate `v`: the round-half-even of `v / 0.1 + 200`, as a 32-bit integer. -/
def rawCell (v : F .f32) : BitVec 32 :=
  FloatOps.fptosi 32 (FloatOps.roundeven (FloatOps.addf (FloatOps.divf v (FloatOps.ofBits .f32 0x3DCCCCCD#32))
    (FloatOps.ofBits .f32 0x43480000#32)))

/-- A cell clipped to the grid: `min 399 (max 0 k)`, signed. -/
def clipCell (k : BitVec 32) : BitVec 32 := IntOp.minsi 399#32 (IntOp.maxsi 0#32 k)

/-- A cell as a scatter reads it: a negative one counted from the end of the axis. -/
def wrapCell (k : BitVec 32) : BitVec 32 := Scalar.select (IntOp.cmpi .slt k 0#32) (IntOp.addi k 400#32) k

/-- Both raw cells inside the grid: `0 ≤ kz < 400` and `0 ≤ kx < 400`, as one truth value. -/
def inGrid (kz kx : BitVec 32) : BitVec 1 :=
  IntOp.andi (IntOp.andi (IntOp.andi (IntOp.cmpi .sge kz 0#32) (IntOp.cmpi .slt kz 400#32)) (IntOp.cmpi .sge kx 0#32))
    (IntOp.cmpi .slt kx 400#32)

/-- The negated height `0 - y` strictly between 0 and 1, as a truth value. -/
def inHeight (y : F .f32) : BitVec 1 :=
  IntOp.andi (FloatOps.cmpf .ogt (FloatOps.subf (FloatOps.ofBits .f32 0x00000000#32) y) (FloatOps.ofBits .f32 0x00000000#32))
    (FloatOps.cmpf .olt (FloatOps.subf (FloatOps.ofBits .f32 0x00000000#32) y) (FloatOps.ofBits .f32 0x3F800000#32))

/-- The weight of the point `(x, y, z)`: one when its height and both its raw cells are admitted, else zero. -/
def weight (x y z : F .f32) : F .f32 :=
  FloatOps.sitofp .f32 ((IntOp.andi (inHeight y) (inGrid (rawCell z) (rawCell x))).setWidth 32)

/-- The row or column a coordinate increments. -/
def cellOf (v : F .f32) : BitVec 32 := wrapCell (clipCell (rawCell v))

/-- The points, as the argument array indexes them. -/
abbrev SPts : Shape := ⟨2, ![8000000, 3]⟩
/-- The points alone. -/
abbrev SN : Shape := ⟨1, ![8000000]⟩
/-- The map. -/
abbrev SMap : Shape := ⟨2, ![400, 400]⟩

/-- The obstacle map of the points `P` over the extended reals: at each cell, zero plus the sum of the weights of the
    points whose row comes from `z` (column 2 of `P`) and whose column comes from `x` (column 0). -/
def hist (P : SPts.Idx → EReal) : SMap.Idx → EReal := fun i =>
  (0 : EReal) + ∑ p ∈ Finset.univ.filter (fun p : SN.Idx =>
      (cellOf (F := Ideal) (P (ix2 (p 0) 2))).toInt = ((i 0).val : Int)
        ∧ (cellOf (F := Ideal) (P (ix2 (p 0) 0))).toInt = ((i 1).val : Int)),
    weight (F := Ideal) (P (ix2 (p 0) 0)) (P (ix2 (p 0) 1)) (P (ix2 (p 0) 2))

/-! ## Over the extended reals -/

/-- A point of height zero weighs nothing: `0 - 0 > 0` is false, so the conjunction is false and its cast is zero. -/
theorem weight_zero_height (x z : Ideal .f32) : weight (F := Ideal) x (0 : EReal) z = (0 : EReal) := by
  have h : inHeight (F := Ideal) (0 : EReal) = 0#1 := by
    unfold inHeight
    simp only [Ideal.ofBits_def, Ideal.ofBits_zero_f32, Ideal.subf_def, sub_zero, Ideal.cmpf_def]
    simp [Ideal.cmp, IntOp.andi]
  unfold weight
  rw [h]
  have h2 : ∀ b : BitVec 1, (IntOp.andi (0#1) b).setWidth 32 = 0#32 := by decide
  rw [h2]
  show (((0#32 : BitVec 32).toInt : ℝ) : EReal) = 0
  simp

/-- The host's negation is the kernel's `0 - y`. -/
theorem hostNegf_eq_zero_sub (y : Ideal .f32) :
    FloatOps.hostNegf y = FloatOps.subf (FloatOps.ofBits (F := Ideal) .f32 0x00000000#32) y := by
  show -y = Ideal.ofBits .f32 0x00000000#32 - y
  rw [Ideal.ofBits_zero_f32, zero_sub]

/-- A truth value cast to a float unsigned is its zero-extension cast signed: both are 0 or 1. -/
theorem uitofp_bit (b : BitVec 1) :
    FloatOps.uitofp (F := Ideal) .f32 b = FloatOps.sitofp (F := Ideal) .f32 (b.setWidth 32) := by
  show (((b.toNat : ℝ)) : EReal) = ((((b.setWidth 32).toInt : ℝ)) : EReal)
  have : ((b.setWidth 32).toInt : Int) = (b.toNat : Int) := by revert b; decide
  rw [this]; simp

end Cert.CellSpec

end
-- ==== Proof.ScatterCells.lean ====
/-
  A scatter-add of one weight per point into the map, at the extended reals, read as a sum.

  Both programs end the same way: the two cell coordinates of every point are laid side by side as the rows of an
  index array, and a scatter adds each point's weight into a zero map at the cell its row names. With no window
  axes and the index vector on the second axis, the cell a point lands on is read, signed, off its own row; so
  the scatter's result at a cell is zero plus the sum of the weights of the points whose two coordinates are that
  cell's (`tailK_eq` over the kernel's 8,126,464 points, `tailR_eq` over the reference's 8,000,000).

  The kernel's extra points come last and weigh nothing, so its sum is the reference's (`sum_pad`).
-/
import proofs.«126312_j39281770889515_1_alg».proof.KernelIdeal
import proofs.«126312_j39281770889515_1_alg».proof.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.ScatterCells

open Idealize.ShloMosaic Idealize.ShloMosaic.ValueIdx

/-! ## The padded sum -/

/-- A filtered sum over 8,126,464 points whose last 126,464 terms are zero, and whose first 8,000,000 agree term by term
    and condition by condition with a filtered sum over 8,000,000 points, is that sum. -/
theorem sum_pad (PK : (⟨1, ![8126464]⟩ : Shape).Idx → Prop) [DecidablePred PK] (WK : (⟨1, ![8126464]⟩ : Shape).Idx → EReal)
    (PR : (⟨1, ![8000000]⟩ : Shape).Idx → Prop) [DecidablePred PR] (WR : (⟨1, ![8000000]⟩ : Shape).Idx → EReal)
    (hP : ∀ p : Fin 8000000, PK (ix1 (⟨p.val, by omega⟩ : Fin 8126464)) ↔ PR (ix1 p))
    (hW : ∀ p : Fin 8000000, WK (ix1 (⟨p.val, by omega⟩ : Fin 8126464)) = WR (ix1 p))
    (h0 : ∀ p : Fin 8126464, 8000000 ≤ p.val → WK (ix1 p) = 0) :
    ∑ p ∈ Finset.univ.filter PK, WK p = ∑ p ∈ Finset.univ.filter PR, WR p := by
  symm
  refine Finset.sum_bij_ne_zero
    (fun p _ _ => ix1 (⟨(p 0).val, Nat.lt_trans (show (p 0).val < 8000000 from (p 0).isLt) (by decide)⟩ : Fin 8126464))
    ?_ ?_ ?_ ?_
  · intro p hp _
    rw [Finset.mem_filter] at hp ⊢
    refine ⟨Finset.mem_univ _, (hP ⟨(p 0).val, (p 0).isLt⟩).2 ?_⟩
    have e : p = ix1 (⟨(p 0).val, (p 0).isLt⟩ : Fin 8000000) := eq_ix1 p
    rw [← e]; exact hp.2
  · intro p _ _ q _ _ hpq
    have h1 := congrArg (fun f : (⟨1, ![8126464]⟩ : Shape).Idx => (f 0).val) hpq
    rw [eq_ix1 p, eq_ix1 q]
    congr 1
    exact Fin.ext h1
  · intro b hb hb0
    rw [Finset.mem_filter] at hb
    have eb : b = ix1 (⟨(b 0).val, (b 0).isLt⟩ : Fin 8126464) := eq_ix1 b
    have hlt : (b 0).val < 8000000 := by
      by_contra hge
      apply hb0
      rw [eb]
      exact h0 _ (Nat.le_of_not_lt hge)
    refine ⟨ix1 (⟨(b 0).val, hlt⟩ : Fin 8000000), ?_, ?_, ?_⟩
    · rw [Finset.mem_filter]
      refine ⟨Finset.mem_univ _, (hP ⟨(b 0).val, hlt⟩).1 ?_⟩
      have := hb.2
      rw [eb] at this
      exact this
    · rw [← hW ⟨(b 0).val, hlt⟩]
      intro hz
      apply hb0
      rw [eb]; exact hz
    · exact eb.symm
  · intro p _ _
    have e : p = ix1 (⟨(p 0).val, (p 0).isLt⟩ : Fin 8000000) := eq_ix1 p
    have := hW ⟨(p 0).val, (p 0).isLt⟩
    rw [← e] at this
    exact this.symm

/-! ## The kernel's scatter -/

section K
open Cert.KernelIdeal Cert.KernelIdeal.Facts₀
variable [Cert.KernelIdeal.Facts]

/-- The cell point `p` lands on is read off row `p` of the index array: it is cell `i` exactly when the row's two
    entries, read signed, are `i`'s coordinates. -/
theorem resultIdx_iff_K (idx : IVec S8126464x2 32) (p : S8126464.Idx) (i : S400x400.Idx) :
    scatter_S400x400_S8126464x2_S8126464_n_01_01_1.resultIdx? p idx = some i ↔
      ((idx (ix2 (⟨(p 0).val, (p 0).isLt⟩ : Fin 8126464) (0 : Fin 2))).toInt = ((i 0).val : Int)
        ∧ (idx (ix2 (⟨(p 0).val, (p 0).isLt⟩ : Fin 8126464) (1 : Fin 2))).toInt = ((i 1).val : Int)) := by
  -- no window axes: the window coordinate is zero on both axes of the map
  have hw : ∀ a, scatter_S400x400_S8126464x2_S8126464_n_01_01_1.window p a = 0 := fun a => by
    unfold ScatterDims.window
    exact dif_neg (by
      have hk : scatter_S400x400_S8126464x2_S8126464_n_01_01_1.sKept = [] := by
        show S400x400.kept ([0, 1] : List (Fin S400x400.rank)) = []
        decide
      rw [hk]; exact List.not_mem_nil)
  -- the start on axis 0 is entry 0 of the point's row, on axis 1 entry 1
  have hs0 : scatter_S400x400_S8126464x2_S8126464_n_01_01_1.start p idx 0
      = (idx (ix2 (⟨(p 0).val, (p 0).isLt⟩ : Fin 8126464) (0 : Fin 2))).toInt := by
    unfold ScatterDims.start
    rw [dif_pos (show (0 : Fin 2) ∈ scatter_S400x400_S8126464x2_S8126464_n_01_01_1.scatterDimsToOperandDims from
      (show (0 : Fin 2) ∈ ([0, 1] : List (Fin 2)) from by decide))]
    congr 2
    funext b; refine Fin.ext ?_
    match b with
    | ⟨0, _⟩ => rfl
    | ⟨1, _⟩ => rfl
  have hs1 : scatter_S400x400_S8126464x2_S8126464_n_01_01_1.start p idx 1
      = (idx (ix2 (⟨(p 0).val, (p 0).isLt⟩ : Fin 8126464) (1 : Fin 2))).toInt := by
    unfold ScatterDims.start
    rw [dif_pos (show (1 : Fin 2) ∈ scatter_S400x400_S8126464x2_S8126464_n_01_01_1.scatterDimsToOperandDims from
      (show (1 : Fin 2) ∈ ([0, 1] : List (Fin 2)) from by decide))]
    congr 2
    funext b; refine Fin.ext ?_
    match b with
    | ⟨0, _⟩ => rfl
    | ⟨1, _⟩ => rfl
  have hi0 : (i 0).val < 400 := idx2_lt0 i
  have hi1 : (i 1).val < 400 := idx2_lt1 i
  unfold ScatterDims.resultIdx?
  by_cases h : ∀ a, 0 ≤ scatter_S400x400_S8126464x2_S8126464_n_01_01_1.start p idx a
        + scatter_S400x400_S8126464x2_S8126464_n_01_01_1.window p a
      ∧ scatter_S400x400_S8126464x2_S8126464_n_01_01_1.start p idx a
        + scatter_S400x400_S8126464x2_S8126464_n_01_01_1.window p a < S400x400.size a
  · rw [dif_pos h]
    have h0 := h 0
    have h1 := h 1
    rw [hw, hs0] at h0
    rw [hw, hs1] at h1
    constructor
    · intro e
      have e' := Option.some.inj e
      have e0 := congrArg (fun f : S400x400.Idx => (f 0).val) e'
      have e1 := congrArg (fun f : S400x400.Idx => (f 1).val) e'
      simp only [hw, hs0, hs1] at e0 e1
      omega
    · rintro ⟨e0, e1⟩
      congr 1
      funext a
      refine Fin.ext ?_
      match a with
      | ⟨0, _⟩ =>
        show (scatter_S400x400_S8126464x2_S8126464_n_01_01_1.start p idx 0
          + scatter_S400x400_S8126464x2_S8126464_n_01_01_1.window p 0).toNat = (i 0).val
        rw [hw, hs0, e0]; simp
      | ⟨1, _⟩ =>
        show (scatter_S400x400_S8126464x2_S8126464_n_01_01_1.start p idx 1
          + scatter_S400x400_S8126464x2_S8126464_n_01_01_1.window p 1).toNat = (i 1).val
        rw [hw, hs1, e1]; simp
  · rw [dif_neg h]
    constructor
    · intro e; cases e
    · rintro ⟨e0, e1⟩
      exfalso; apply h
      intro a
      match a with
      | ⟨0, _⟩ =>
        show 0 ≤ scatter_S400x400_S8126464x2_S8126464_n_01_01_1.start p idx 0
            + scatter_S400x400_S8126464x2_S8126464_n_01_01_1.window p 0
          ∧ scatter_S400x400_S8126464x2_S8126464_n_01_01_1.start p idx 0
            + scatter_S400x400_S8126464x2_S8126464_n_01_01_1.window p 0 < ((400 : Nat) : Int)
        rw [hw, hs0, e0]; omega
      | ⟨1, _⟩ =>
        show 0 ≤ scatter_S400x400_S8126464x2_S8126464_n_01_01_1.start p idx 1
            + scatter_S400x400_S8126464x2_S8126464_n_01_01_1.window p 1
          ∧ scatter_S400x400_S8126464x2_S8126464_n_01_01_1.start p idx 1
            + scatter_S400x400_S8126464x2_S8126464_n_01_01_1.window p 1 < ((400 : Nat) : Int)
        rw [hw, hs1, e1]; omega

/-- Entry 0 of row `p` of the two columns laid side by side is the first column's entry `p`. -/
private theorem catK_left (IZ IX : IVec S8126464 32) (p : S8126464.Idx) :
    concatenate S8126464x2 1 [⟨S8126464x1, broadcastInDim S8126464x1 ![0] bcast_S8126464_S8126464x1_0 IZ⟩,
        ⟨S8126464x1, broadcastInDim S8126464x1 ![0] bcast_S8126464_S8126464x1_0 IX⟩] concatenates_S8126464x1_S8126464x1_S8126464x2_d1
      (ix2 (⟨(p 0).val, (p 0).isLt⟩ : Fin 8126464) (0 : Fin 2)) = IZ p := by
  rw [concatenate_pair_apply_left (t := S8126464x2) (s₁ := S8126464x1) (s₂ := S8126464x1) (1 : Fin 2)
      (broadcastInDim S8126464x1 ![0] bcast_S8126464_S8126464x1_0 IZ)
      (broadcastInDim S8126464x1 ![0] bcast_S8126464_S8126464x1_0 IX)
      concatenates_S8126464x1_S8126464x1_S8126464x2_d1
      (ix2 (⟨(p 0).val, (p 0).isLt⟩ : Fin 8126464) (0 : Fin 2)) rfl
      (ix2 (⟨(p 0).val, (p 0).isLt⟩ : Fin 8126464) (0 : Fin 1))
      (fun b => by
        match b with
        | ⟨0, _⟩ => rfl
        | ⟨1, _⟩ => rfl)]
  exact broadcastInDim_apply ![0] bcast_S8126464_S8126464x1_0 IZ
    (ix2 (⟨(p 0).val, (p 0).isLt⟩ : Fin 8126464) (0 : Fin 1)) p (fun a => by
    match a with
    | ⟨0, _⟩ =>
      show (p 0).val = if (8126464 : Nat) = 1 then 0 else (p 0).val
      exact (if_neg (by decide)).symm)

/-- Entry 1 of row `p` is the second column's entry `p`. -/
private theorem catK_right (IZ IX : IVec S8126464 32) (p : S8126464.Idx) :
    concatenate S8126464x2 1 [⟨S8126464x1, broadcastInDim S8126464x1 ![0] bcast_S8126464_S8126464x1_0 IZ⟩,
        ⟨S8126464x1, broadcastInDim S8126464x1 ![0] bcast_S8126464_S8126464x1_0 IX⟩] concatenates_S8126464x1_S8126464x1_S8126464x2_d1
      (ix2 (⟨(p 0).val, (p 0).isLt⟩ : Fin 8126464) (1 : Fin 2)) = IX p := by
  rw [concatenate_pair_apply_right (t := S8126464x2) (s₁ := S8126464x1) (s₂ := S8126464x1) (1 : Fin 2)
      (broadcastInDim S8126464x1 ![0] bcast_S8126464_S8126464x1_0 IZ)
      (broadcastInDim S8126464x1 ![0] bcast_S8126464_S8126464x1_0 IX)
      concatenates_S8126464x1_S8126464x1_S8126464x2_d1
      (ix2 (⟨(p 0).val, (p 0).isLt⟩ : Fin 8126464) (1 : Fin 2)) rfl rfl
      (ix2 (⟨(p 0).val, (p 0).isLt⟩ : Fin 8126464) (0 : Fin 1))
      (fun b hb => by
        match b with
        | ⟨0, _⟩ => rfl
        | ⟨1, _⟩ => exact absurd rfl hb)
      rfl]
  exact broadcastInDim_apply ![0] bcast_S8126464_S8126464x1_0 IX
    (ix2 (⟨(p 0).val, (p 0).isLt⟩ : Fin 8126464) (0 : Fin 1)) p (fun a => by
    match a with
    | ⟨0, _⟩ =>
      show (p 0).val = if (8126464 : Nat) = 1 then 0 else (p 0).val
      exact (if_neg (by decide)).symm)

/-- The kernel's last three host operations, as a sum: rows `IZ`, columns `IX`, weights `W`. -/
theorem tailK_eq (IZ IX : IVec S8126464 32) (W : FVec Ideal S8126464 .f32) :
    Host.scatterAdd (F := Ideal) scatter_S400x400_S8126464x2_S8126464_n_01_01_1
      (broadcastInDim S400x400 ![] bcast_S_S400x400 (constant (F := Ideal) S_ .f32 0x00000000#32))
      (concatenate S8126464x2 1 [⟨S8126464x1, broadcastInDim S8126464x1 ![0] bcast_S8126464_S8126464x1_0 IZ⟩,
        ⟨S8126464x1, broadcastInDim S8126464x1 ![0] bcast_S8126464_S8126464x1_0 IX⟩] concatenates_S8126464x1_S8126464x1_S8126464x2_d1)
      W
    = fun i => (0 : EReal) + ∑ p ∈ Finset.univ.filter (fun p : S8126464.Idx =>
        (IZ p).toInt = ((i 0).val : Int) ∧ (IX p).toInt = ((i 1).val : Int)), W p := by
  unfold Host.scatterAdd
  rw [Ideal.hostScatterAdd_def]
  unfold Ideal.hostScatterAdd
  funext i
  refine congrArg₂ (fun a b : EReal => a + b) ?_ ?_
  · -- the zero map reads the word 0, which is the extended real 0
    show Ideal.ofBits .f32 0x00000000#32 = 0
    exact Ideal.ofBits_zero_f32
  · -- the same weights, summed over the same points
    refine Finset.sum_congr (Finset.filter_congr fun p _ => ?_) (fun _ _ => rfl)
    rw [resultIdx_iff_K, catK_left, catK_right]

end K

/-! ## The reference's scatter -/

section R
open Cert.ReferenceIdeal Cert.ReferenceIdeal.Facts₀
variable [Cert.ReferenceIdeal.Facts]

/-- The same reading of the landing cell, over the reference's 8,000,000 points. -/
theorem resultIdx_iff_R (idx : IVec S8000000x2 32) (p : S8000000.Idx) (i : S400x400.Idx) :
    scatter_S400x400_S8000000x2_S8000000_n_01_01_1.resultIdx? p idx = some i ↔
      ((idx (ix2 (⟨(p 0).val, (p 0).isLt⟩ : Fin 8000000) (0 : Fin 2))).toInt = ((i 0).val : Int)
        ∧ (idx (ix2 (⟨(p 0).val, (p 0).isLt⟩ : Fin 8000000) (1 : Fin 2))).toInt = ((i 1).val : Int)) := by
  -- no window axes: the window coordinate is zero on both axes of the map
  have hw : ∀ a, scatter_S400x400_S8000000x2_S8000000_n_01_01_1.window p a = 0 := fun a => by
    unfold ScatterDims.window
    exact dif_neg (by
      have hk : scatter_S400x400_S8000000x2_S8000000_n_01_01_1.sKept = [] := by
        show S400x400.kept ([0, 1] : List (Fin S400x400.rank)) = []
        decide
      rw [hk]; exact List.not_mem_nil)
  -- the start on axis 0 is entry 0 of the point's row, on axis 1 entry 1
  have hs0 : scatter_S400x400_S8000000x2_S8000000_n_01_01_1.start p idx 0
      = (idx (ix2 (⟨(p 0).val, (p 0).isLt⟩ : Fin 8000000) (0 : Fin 2))).toInt := by
    unfold ScatterDims.start
    rw [dif_pos (show (0 : Fin 2) ∈ scatter_S400x400_S8000000x2_S8000000_n_01_01_1.scatterDimsToOperandDims from
      (show (0 : Fin 2) ∈ ([0, 1] : List (Fin 2)) from by decide))]
    congr 2
    funext b; refine Fin.ext ?_
    match b with
    | ⟨0, _⟩ => rfl
    | ⟨1, _⟩ => rfl
  have hs1 : scatter_S400x400_S8000000x2_S8000000_n_01_01_1.start p idx 1
      = (idx (ix2 (⟨(p 0).val, (p 0).isLt⟩ : Fin 8000000) (1 : Fin 2))).toInt := by
    unfold ScatterDims.start
    rw [dif_pos (show (1 : Fin 2) ∈ scatter_S400x400_S8000000x2_S8000000_n_01_01_1.scatterDimsToOperandDims from
      (show (1 : Fin 2) ∈ ([0, 1] : List (Fin 2)) from by decide))]
    congr 2
    funext b; refine Fin.ext ?_
    match b with
    | ⟨0, _⟩ => rfl
    | ⟨1, _⟩ => rfl
  have hi0 : (i 0).val < 400 := idx2_lt0 i
  have hi1 : (i 1).val < 400 := idx2_lt1 i
  unfold ScatterDims.resultIdx?
  by_cases h : ∀ a, 0 ≤ scatter_S400x400_S8000000x2_S8000000_n_01_01_1.start p idx a
        + scatter_S400x400_S8000000x2_S8000000_n_01_01_1.window p a
      ∧ scatter_S400x400_S8000000x2_S8000000_n_01_01_1.start p idx a
        + scatter_S400x400_S8000000x2_S8000000_n_01_01_1.window p a < S400x400.size a
  · rw [dif_pos h]
    have h0 := h 0
    have h1 := h 1
    rw [hw, hs0] at h0
    rw [hw, hs1] at h1
    constructor
    · intro e
      have e' := Option.some.inj e
      have e0 := congrArg (fun f : S400x400.Idx => (f 0).val) e'
      have e1 := congrArg (fun f : S400x400.Idx => (f 1).val) e'
      simp only [hw, hs0, hs1] at e0 e1
      omega
    · rintro ⟨e0, e1⟩
      congr 1
      funext a
      refine Fin.ext ?_
      match a with
      | ⟨0, _⟩ =>
        show (scatter_S400x400_S8000000x2_S8000000_n_01_01_1.start p idx 0
          + scatter_S400x400_S8000000x2_S8000000_n_01_01_1.window p 0).toNat = (i 0).val
        rw [hw, hs0, e0]; simp
      | ⟨1, _⟩ =>
        show (scatter_S400x400_S8000000x2_S8000000_n_01_01_1.start p idx 1
          + scatter_S400x400_S8000000x2_S8000000_n_01_01_1.window p 1).toNat = (i 1).val
        rw [hw, hs1, e1]; simp
  · rw [dif_neg h]
    constructor
    · intro e; cases e
    · rintro ⟨e0, e1⟩
      exfalso; apply h
      intro a
      match a with
      | ⟨0, _⟩ =>
        show 0 ≤ scatter_S400x400_S8000000x2_S8000000_n_01_01_1.start p idx 0
            + scatter_S400x400_S8000000x2_S8000000_n_01_01_1.window p 0
          ∧ scatter_S400x400_S8000000x2_S8000000_n_01_01_1.start p idx 0
            + scatter_S400x400_S8000000x2_S8000000_n_01_01_1.window p 0 < ((400 : Nat) : Int)
        rw [hw, hs0, e0]; omega
      | ⟨1, _⟩ =>
        show 0 ≤ scatter_S400x400_S8000000x2_S8000000_n_01_01_1.start p idx 1
            + scatter_S400x400_S8000000x2_S8000000_n_01_01_1.window p 1
          ∧ scatter_S400x400_S8000000x2_S8000000_n_01_01_1.start p idx 1
            + scatter_S400x400_S8000000x2_S8000000_n_01_01_1.window p 1 < ((400 : Nat) : Int)
        rw [hw, hs1, e1]; omega

/-- Entry 0 of row `p` of the two columns laid side by side is the first column's entry `p`. -/
private theorem catR_left (IZ IX : IVec S8000000 32) (p : S8000000.Idx) :
    concatenate S8000000x2 1 [⟨S8000000x1, broadcastInDim S8000000x1 ![0] bcast_S8000000_S8000000x1_0 IZ⟩,
        ⟨S8000000x1, broadcastInDim S8000000x1 ![0] bcast_S8000000_S8000000x1_0 IX⟩] concatenates_S8000000x1_S8000000x1_S8000000x2_d1
      (ix2 (⟨(p 0).val, (p 0).isLt⟩ : Fin 8000000) (0 : Fin 2)) = IZ p := by
  rw [concatenate_pair_apply_left (t := S8000000x2) (s₁ := S8000000x1) (s₂ := S8000000x1) (1 : Fin 2)
      (broadcastInDim S8000000x1 ![0] bcast_S8000000_S8000000x1_0 IZ)
      (broadcastInDim S8000000x1 ![0] bcast_S8000000_S8000000x1_0 IX)
      concatenates_S8000000x1_S8000000x1_S8000000x2_d1
      (ix2 (⟨(p 0).val, (p 0).isLt⟩ : Fin 8000000) (0 : Fin 2)) rfl
      (ix2 (⟨(p 0).val, (p 0).isLt⟩ : Fin 8000000) (0 : Fin 1))
      (fun b => by
        match b with
        | ⟨0, _⟩ => rfl
        | ⟨1, _⟩ => rfl)]
  exact broadcastInDim_apply ![0] bcast_S8000000_S8000000x1_0 IZ
    (ix2 (⟨(p 0).val, (p 0).isLt⟩ : Fin 8000000) (0 : Fin 1)) p (fun a => by
    match a with
    | ⟨0, _⟩ =>
      show (p 0).val = if (8000000 : Nat) = 1 then 0 else (p 0).val
      exact (if_neg (by decide)).symm)

/-- Entry 1 of row `p` is the second column's entry `p`. -/
private theorem catR_right (IZ IX : IVec S8000000 32) (p : S8000000.Idx) :
    concatenate S8000000x2 1 [⟨S8000000x1, broadcastInDim S8000000x1 ![0] bcast_S8000000_S8000000x1_0 IZ⟩,
        ⟨S8000000x1, broadcastInDim S8000000x1 ![0] bcast_S8000000_S8000000x1_0 IX⟩] concatenates_S8000000x1_S8000000x1_S8000000x2_d1
      (ix2 (⟨(p 0).val, (p 0).isLt⟩ : Fin 8000000) (1 : Fin 2)) = IX p := by
  rw [concatenate_pair_apply_right (t := S8000000x2) (s₁ := S8000000x1) (s₂ := S8000000x1) (1 : Fin 2)
      (broadcastInDim S8000000x1 ![0] bcast_S8000000_S8000000x1_0 IZ)
      (broadcastInDim S8000000x1 ![0] bcast_S8000000_S8000000x1_0 IX)
      concatenates_S8000000x1_S8000000x1_S8000000x2_d1
      (ix2 (⟨(p 0).val, (p 0).isLt⟩ : Fin 8000000) (1 : Fin 2)) rfl rfl
      (ix2 (⟨(p 0).val, (p 0).isLt⟩ : Fin 8000000) (0 : Fin 1))
      (fun b hb => by
        match b with
        | ⟨0, _⟩ => rfl
        | ⟨1, _⟩ => exact absurd rfl hb)
      rfl]
  exact broadcastInDim_apply ![0] bcast_S8000000_S8000000x1_0 IX
    (ix2 (⟨(p 0).val, (p 0).isLt⟩ : Fin 8000000) (0 : Fin 1)) p (fun a => by
    match a with
    | ⟨0, _⟩ =>
      show (p 0).val = if (8000000 : Nat) = 1 then 0 else (p 0).val
      exact (if_neg (by decide)).symm)

/-- The reference's last three host operations, as a sum. -/
theorem tailR_eq (IZ IX : IVec S8000000 32) (W : FVec Ideal S8000000 .f32) :
    Host.scatterAdd (F := Ideal) scatter_S400x400_S8000000x2_S8000000_n_01_01_1
      (broadcastInDim S400x400 ![] bcast_S_S400x400 (constant (F := Ideal) S_ .f32 0x00000000#32))
      (concatenate S8000000x2 1 [⟨S8000000x1, broadcastInDim S8000000x1 ![0] bcast_S8000000_S8000000x1_0 IZ⟩,
        ⟨S8000000x1, broadcastInDim S8000000x1 ![0] bcast_S8000000_S8000000x1_0 IX⟩] concatenates_S8000000x1_S8000000x1_S8000000x2_d1)
      W
    = fun i => (0 : EReal) + ∑ p ∈ Finset.univ.filter (fun p : S8000000.Idx =>
        (IZ p).toInt = ((i 0).val : Int) ∧ (IX p).toInt = ((i 1).val : Int)), W p := by
  unfold Host.scatterAdd
  rw [Ideal.hostScatterAdd_def]
  unfold Ideal.hostScatterAdd
  funext i
  refine congrArg₂ (fun a b : EReal => a + b) ?_ ?_
  · -- the zero map reads the word 0, which is the extended real 0
    show Ideal.ofBits .f32 0x00000000#32 = 0
    exact Ideal.ofBits_zero_f32
  · -- the same weights, summed over the same points
    refine Finset.sum_congr (Finset.filter_congr fun p _ => ?_) (fun _ _ => rfl)
    rw [resultIdx_iff_R, catR_left, catR_right]

end R

end Cert.ScatterCells

end
-- ==== Proof.RefHist.lean ====
/-
  The reference's result is the obstacle map of its argument.

  The reference slices the three columns out of the points, computes each point's two cells and its weight with
  the host's spellings of the same operations, and scatters the weights into a zero map. Read one operation at a
  time, row p of its index array holds the cells of point p's z and x, and entry p of its update array holds point
  p's weight; the scatter read as a sum is then the map.
-/
import proofs.«126312_j39281770889515_1_alg».proof.Proof.RefRead
import proofs.«126312_j39281770889515_1_alg».proof.Proof.CellSpec
import proofs.«126312_j39281770889515_1_alg».proof.Proof.ScatterCells

noncomputable section

namespace Cert.ReferenceIdeal.Hist

open Cert.ReferenceIdeal Cert.ReferenceIdeal.Gen Cert.ReferenceIdeal.Facts₀ Cert.ReferenceIdeal.ReadP Cert.CellSpec
open Idealize.ShloMosaic Idealize.ShloMosaic.TcCoe Idealize.ShloMosaic.ValueIdx Idealize.SL.Sem

/-! ## Where the three columns are read

Each column is a slice of width one reshaped to a vector: entry `p` of column `k` is the point array at row `p`, column `k`. -/

/-- Entry `p` of the first column is the point array at `(p, 0)`. -/
private theorem idx_col0 (p : S8000000.Idx) : idx_main_v0 (idx_main_v1 p) = ix2 (p 0) 0 := by
  funext a
  refine Fin.ext ?_
  match a with
  | ⟨0, _⟩ => exact Nat.div_one _
  | ⟨1, _⟩ => rfl

/-- Entry `p` of the second column is the point array at `(p, 1)`. -/
private theorem idx_col1 (p : S8000000.Idx) : idx_main_v2 (idx_main_v3 p) = ix2 (p 0) 1 := by
  funext a
  refine Fin.ext ?_
  match a with
  | ⟨0, _⟩ => exact Nat.div_one _
  | ⟨1, _⟩ => rfl

/-- Entry `p` of the third column is the point array at `(p, 2)`. -/
private theorem idx_col2 (p : S8000000.Idx) : idx_main_v5 (idx_main_v6 p) = ix2 (p 0) 2 := by
  funext a
  refine Fin.ext ?_
  match a with
  | ⟨0, _⟩ => exact Nat.div_one _
  | ⟨1, _⟩ => rfl

/-! ## The raw cells -/

/-- The reference's integer cell of the third column is the raw cell of `z`. -/
private theorem raw_z (x0 : (⟨S8000000x3, .f32⟩ : BufTy).Contents (Elt Ideal)) (p : S8000000.Idx) :
    val_main_v17 (F := Ideal) x0 p = rawCell (F := Ideal) (x0 (ix2 (p 0) 2)) := by
  rw [val_main_v17_apply, val_main_v16_apply, val_main_v15_apply, val_main_v13_apply, val_main_v14_apply,
    val_main_cst_2_apply, val_main_v12_apply, val_main_cst_1_apply, val_main_v6_apply, val_main_v5_apply, idx_col2]
  rfl

/-- The reference's integer cell of the first column is the raw cell of `x`. -/
private theorem raw_x (x0 : (⟨S8000000x3, .f32⟩ : BufTy).Contents (Elt Ideal)) (p : S8000000.Idx) :
    val_main_v23 (F := Ideal) x0 p = rawCell (F := Ideal) (x0 (ix2 (p 0) 0)) := by
  rw [val_main_v23_apply, val_main_v22_apply, val_main_v21_apply, val_main_v19_apply, val_main_v20_apply,
    val_main_cst_4_apply, val_main_v18_apply, val_main_cst_3_apply, val_main_v1_apply, val_main_v0_apply, idx_col0]
  rfl

/-! ## The three per-point readings -/

/-- Row entry of point `p`: the clipped, wrapped cell of its `z`. -/
private theorem cell_z (x0 : (⟨S8000000x3, .f32⟩ : BufTy).Contents (Elt Ideal)) (p : S8000000.Idx) :
    val_main_v44 (F := Ideal) x0 p = cellOf (F := Ideal) (x0 (ix2 (p 0) 2)) := by
  rw [val_main_v44_apply, val_main_v41_apply, val_main_v43_apply, val_main_v37_apply,
    val_main_call2_v4_apply, val_main_call2_v3_apply, val_main_c_9_apply,
    val_main_call2_v2_apply, val_main_call2_v1_apply, val_main_call2_v0_apply, val_main_c_8_apply,
    val_main_v40_apply, val_main_c_13_apply, val_main_v42_apply, val_main_c_14_apply, raw_z]
  rfl

/-- Column entry of point `p`: the clipped, wrapped cell of its `x`. -/
private theorem cell_x (x0 : (⟨S8000000x3, .f32⟩ : BufTy).Contents (Elt Ideal)) (p : S8000000.Idx) :
    val_main_v49 (F := Ideal) x0 p = cellOf (F := Ideal) (x0 (ix2 (p 0) 0)) := by
  rw [val_main_v49_apply, val_main_v46_apply, val_main_v48_apply, val_main_v38_apply,
    val_main_call3_v4_apply, val_main_call3_v3_apply, val_main_c_11_apply,
    val_main_call3_v2_apply, val_main_call3_v1_apply, val_main_call3_v0_apply, val_main_c_10_apply,
    val_main_v45_apply, val_main_c_15_apply, val_main_v47_apply, val_main_c_16_apply, raw_x]
  rfl

/-- The update of point `p` is its weight. -/
private theorem weight_p (x0 : (⟨S8000000x3, .f32⟩ : BufTy).Contents (Elt Ideal)) (p : S8000000.Idx) :
    val_main_v36 (F := Ideal) x0 p
      = weight (F := Ideal) (x0 (ix2 (p 0) 0)) (x0 (ix2 (p 0) 1)) (x0 (ix2 (p 0) 2)) := by
  rw [val_main_v36_apply, val_main_v35_apply, val_main_v11_apply, val_main_v8_apply, val_main_v10_apply,
    val_main_v4_apply, val_main_v3_apply, val_main_v2_apply, idx_col1,
    val_main_v7_apply, val_main_cst_apply, val_main_v9_apply, val_main_cst_0_apply,
    val_main_v34_apply, val_main_v31_apply, val_main_v28_apply, val_main_v25_apply, val_main_v27_apply,
    val_main_v30_apply, val_main_v33_apply,
    val_main_v24_apply, val_main_c_apply, val_main_v26_apply, val_main_c_5_apply,
    val_main_v29_apply, val_main_c_6_apply, val_main_v32_apply, val_main_c_7_apply,
    raw_z, raw_x, uitofp_bit, hostNegf_eq_zero_sub]
  rfl

/-- The reference's last stage, at the extended reals, is the obstacle map of the points. -/
theorem ref_hist (x0 : (⟨S8000000x3, .f32⟩ : BufTy).Contents (Elt Ideal)) :
    val_main_v53 (F := Ideal) x0 = hist x0 := by
  -- the last stages are a scatter of the weights into a zero map, at rows and columns laid side by side
  unfold val_main_v53 val_main_v52 val_main_v50 val_main_v51 val_main_v39 val_main_cst_12
  refine (Cert.ScatterCells.tailR_eq (val_main_v44 (F := Ideal) x0) (val_main_v49 (F := Ideal) x0)
    (val_main_v36 (F := Ideal) x0)).trans ?_
  funext i
  unfold hist
  refine congrArg (fun s : EReal => (0 : EReal) + s) ?_
  -- the same points land on cell `i`, and each carries the same weight
  refine Finset.sum_congr (Finset.filter_congr fun p _ => ?_) (fun p _ => ?_)
  · rw [cell_z, cell_x]
  · exact weight_p x0 p

end Cert.ReferenceIdeal.Hist

end
-- ==== Proof.KernelBlocks.lean ====
/-
  What the kernel's three output arrays hold after the region, index by index.

  A grid point's input block is three slabs of 2048 × 128 coordinates: slab 0 the x's, slab 1 the y's, slab 2 the
  z's. The body is pointwise, so at row r, lane l of the block the first output holds the clipped raw cell of the
  z there, the second the clipped raw cell of the x, and the third the point's weight. The 31 blocks tile the
  63488 × 128 arrays, block t being rows [2048 t, 2048 t + 2048), so after the run each output array is the same
  pointwise function of the input array as the region finds it.
-/
import proofs.«126312_j39281770889515_1_alg».proof.Proof.Gen.KernelIdeal.Frame
import proofs.«126312_j39281770889515_1_alg».proof.Proof.CellSpec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Facts₀ Cert.CellSpec
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

/-- The rows of the cells, as a function of the whole input array. -/
abbrev GZ (A : S3x63488x128.Idx → Elt F .f32) : S63488x128.Idx → BitVec 32 := fun j =>
  clipCell (rawCell (F := F) (A (ix3 (2 : Fin 3) (⟨(j 0).val, (j 0).isLt⟩ : Fin 63488) (⟨(j 1).val, (j 1).isLt⟩ : Fin 128))))
/-- The columns of the cells. -/
abbrev GX (A : S3x63488x128.Idx → Elt F .f32) : S63488x128.Idx → BitVec 32 := fun j =>
  clipCell (rawCell (F := F) (A (ix3 (0 : Fin 3) (⟨(j 0).val, (j 0).isLt⟩ : Fin 63488) (⟨(j 1).val, (j 1).isLt⟩ : Fin 128))))
/-- The weights. -/
abbrev GW (A : S3x63488x128.Idx → Elt F .f32) : S63488x128.Idx → F .f32 := fun j =>
  weight (F := F)
    (A (ix3 (0 : Fin 3) (⟨(j 0).val, (j 0).isLt⟩ : Fin 63488) (⟨(j 1).val, (j 1).isLt⟩ : Fin 128)))
    (A (ix3 (1 : Fin 3) (⟨(j 0).val, (j 0).isLt⟩ : Fin 63488) (⟨(j 1).val, (j 1).isLt⟩ : Fin 128)))
    (A (ix3 (2 : Fin 3) (⟨(j 0).val, (j 0).isLt⟩ : Fin 63488) (⟨(j 1).val, (j 1).isLt⟩ : Fin 128)))

/-! ## Indices and the slab loads -/

/-- The zero offsets of an output block inside its staging buffer. -/
private theorem zeroOffsets : (![0, 0] : Fin 2 → Nat) = fun _ => 0 := funext fun a => by fin_cases a <;> rfl

/-- Slab `k` of an input block, with its unit axis cast away, read at row `r`, lane `l`: the block's element
    `(k, r, l)`. The cast keeps the row-major position, `(0 · 2048 + r) · 128 + l = r · 128 + l`, and the slab's
    rectangle starts at `(k, 0, 0)` with unit strides. -/
private theorem slab_apply (x0 : Vec F S3x2048x128 .f32) (k : Fin 3) (off : Fin 3 → Nat)
    (inb : ∀ a, off a + S1x2048x128.size a ≤ S3x2048x128.size a)
    (hc : S1x2048x128.ShapeCasts S2048x128)
    (h0 : off 0 = k.val) (h1 : off 1 = 0) (h2 : off 2 = 0) (r : Fin 2048) (l : Fin 128) :
    shapeCast S2048x128 (View.ld x0 (Rect.unit (s := S3x2048x128) off S1x2048x128.size inb)) hc (ix2 r l)
      = x0 (ix3 k r l) := by
  refine (shapeCast_apply _ _ (ix2 r l) (ix3 (0 : Fin 1) r l) ?_).trans ?_
  · rw [Shape.rowMajor_val_three, Shape.rowMajor_val_two]
    show ((0 : Nat) * 2048 + r.val) * 128 + l.val = r.val * 128 + l.val
    omega
  · show x0 ((Rect.unit (s := S3x2048x128) off S1x2048x128.size inb).idx (ix3 (0 : Fin 1) r l)) = x0 (ix3 k r l)
    refine congrArg x0 (funext fun a => Fin.ext ?_)
    match a with
    | ⟨0, _⟩ => show off 0 + 1 * 0 = k.val; omega
    | ⟨1, _⟩ => show off 1 + 1 * r.val = r.val; omega
    | ⟨2, _⟩ => show off 2 + 1 * l.val = l.val; omega

/-! ## The payloads at an index -/

/-- The first output's payload at row `r`, lane `l` of a block: the clipped raw cell of the block's z there. -/
private theorem payZ_apply (x0 : Vec F S3x2048x128 .f32) (r : Fin 2048) (l : Fin 128) :
    k0_pay1 (k0_pay3 (View.ld x0 r0_2)) (ix2 r l) = clipCell (rawCell (F := F) (x0 (ix3 (2 : Fin 3) r l))) := by
  rw [← slab_apply x0 (2 : Fin 3) ![2, 0, 0] Gen.inb_S3x2048x128_S1x2048x128_2_0_0
    Gen.shapeCasts_S1x2048x128_S2048x128 rfl rfl rfl r l]
  rfl

/-- The second output's payload at row `r`, lane `l` of a block: the clipped raw cell of the block's x there. -/
private theorem payX_apply (x0 : Vec F S3x2048x128 .f32) (r : Fin 2048) (l : Fin 128) :
    k0_pay2 (k0_pay4 (View.ld x0 r0_0)) (ix2 r l) = clipCell (rawCell (F := F) (x0 (ix3 (0 : Fin 3) r l))) := by
  rw [← slab_apply x0 (0 : Fin 3) ![0, 0, 0] Gen.inb_S3x2048x128_S1x2048x128_0_0_0
    Gen.shapeCasts_S1x2048x128_S2048x128 rfl rfl rfl r l]
  rfl

/-- The third output's payload at row `r`, lane `l` of a block: the weight of the block's point there, its x, y
    and z read off slabs 0, 1 and 2. -/
private theorem payW_apply (x0 : Vec F S3x2048x128 .f32) (r : Fin 2048) (l : Fin 128) :
    k0_pay5 (View.ld x0 r0_0) (View.ld x0 r0_1) (View.ld x0 r0_2) (ix2 r l)
      = weight (F := F) (x0 (ix3 (0 : Fin 3) r l)) (x0 (ix3 (1 : Fin 3) r l)) (x0 (ix3 (2 : Fin 3) r l)) := by
  rw [← slab_apply x0 (0 : Fin 3) ![0, 0, 0] Gen.inb_S3x2048x128_S1x2048x128_0_0_0
      Gen.shapeCasts_S1x2048x128_S2048x128 rfl rfl rfl r l,
    ← slab_apply x0 (1 : Fin 3) ![1, 0, 0] Gen.inb_S3x2048x128_S1x2048x128_1_0_0
      Gen.shapeCasts_S1x2048x128_S2048x128 rfl rfl rfl r l,
    ← slab_apply x0 (2 : Fin 3) ![2, 0, 0] Gen.inb_S3x2048x128_S1x2048x128_2_0_0
      Gen.shapeCasts_S1x2048x128_S2048x128 rfl rfl rfl r l]
  rfl

/-! ## The index maps over the grid -/

/-- At every grid point the input block sits at slab 0, lane block 0 and the same row block as each output block, the
    output blocks sit at lane block 0, and their row block is at most 30 (decided over the 31 points). -/
private theorem idx_facts : ∀ t : Fin cfg0.N,
    win0_0.index t (0 : Fin 3) = 0 ∧ win0_0.index t (2 : Fin 3) = 0
    ∧ win0_0.index t (1 : Fin 3) = win0_1.index t (0 : Fin 2)
    ∧ win0_0.index t (1 : Fin 3) = win0_2.index t (0 : Fin 2)
    ∧ win0_0.index t (1 : Fin 3) = win0_3.index t (0 : Fin 2)
    ∧ win0_1.index t (1 : Fin 2) = 0 ∧ win0_2.index t (1 : Fin 2) = 0 ∧ win0_3.index t (1 : Fin 2) = 0
    ∧ win0_0.index t (1 : Fin 3) ≤ 30 :=
  (by decide +kernel : ∀ t : Fin grid0.N, _)

/-- Every row block of the first output is some point's. -/
private theorem idx_ontoZ : ∀ q : Fin 31, ∃ t : Fin cfg0.N, win0_1.index t = ![q.val, 0] :=
  (by decide +kernel : ∀ q : Fin 31, ∃ t : Fin grid0.N, win0_1.index t = ![q.val, 0])

/-- Every row block of the second output is some point's. -/
private theorem idx_ontoX : ∀ q : Fin 31, ∃ t : Fin cfg0.N, win0_2.index t = ![q.val, 0] :=
  (by decide +kernel : ∀ q : Fin 31, ∃ t : Fin grid0.N, win0_2.index t = ![q.val, 0])

/-- Every row block of the third output is some point's. -/
private theorem idx_ontoW : ∀ q : Fin 31, ∃ t : Fin cfg0.N, win0_3.index t = ![q.val, 0] :=
  (by decide +kernel : ∀ q : Fin 31, ∃ t : Fin grid0.N, win0_3.index t = ![q.val, 0])

/-! ## The first output: the rows -/

/-- Row `r`, lane `l` of what a point leaves in the first output's buffer is `GZ` of the input array at the index
    the output's block places there: the input block's element `(2, r, l)` is the array's at row
    `2048 · (row block) + r`, the row block being the output's. -/
private theorem blockZ_apply (c : Dev nD) (t : Fin cfg0.N) (r : Fin 2048) (l : Fin 128) :
    k0_pay1 (k0_pay3 (View.ld (iblk m c 0 t) r0_2)) (ix2 r l)
      = GZ (F := F) (V m c main_v2) (((cfg0.win 1).blk t).view.emb (ix2 r l)) := by
  obtain ⟨e0, e2, e1, -, -, f1, -, -, le⟩ := idx_facts t
  refine (payZ_apply (iblk m c 0 t) r l).trans ?_
  show clipCell (rawCell (F := F) (V m c main_v2 (((cfg0.win 0).blk t).view.emb (ix3 (2 : Fin 3) r l))))
    = clipCell (rawCell (F := F) (V m c main_v2 (ix3 (2 : Fin 3)
        (⟨((((cfg0.win 1).blk t).view.emb (ix2 r l)) 0).val, ((((cfg0.win 1).blk t).view.emb (ix2 r l)) 0).isLt⟩ : Fin 63488)
        (⟨((((cfg0.win 1).blk t).view.emb (ix2 r l)) 1).val, ((((cfg0.win 1).blk t).view.emb (ix2 r l)) 1).isLt⟩ : Fin 128))))
  refine congrArg (fun z => clipCell (rawCell (F := F) (V m c main_v2 z))) (funext fun a => Fin.ext ?_)
  match a with
  | ⟨0, _⟩ => show win0_0.index t (0 : Fin 3) * 3 + 1 * 2 = 2; omega
  | ⟨1, _⟩ => show win0_0.index t (1 : Fin 3) * 2048 + 1 * r.val = win0_1.index t (0 : Fin 2) * 2048 + 1 * r.val; omega
  | ⟨2, _⟩ => show win0_0.index t (2 : Fin 3) * 128 + 1 * l.val = win0_1.index t (1 : Fin 2) * 128 + 1 * l.val; omega

/-- What a point writes back to the first output is its block of `GZ` of the input array. -/
private theorem flushedZ (c : Dev nD) (t : Fin cfg0.N) :
    (dats m 0 c).flushed 1 t = ((cfg0.win 1).blk t).view.read (Elt F) (GZ (F := F) (V m c main_v2)) := by
  show (cfg0.win 1).cut (grid0.coords t) ((dats m 0 c).after 1 t) = _
  rw [after0_1]
  unfold out0_1
  rw [View.canon_unit_zero zeroOffsets]
  funext y
  obtain ⟨r, l, rfl⟩ : ∃ (r : Fin 2048) (l : Fin 128), y = ix2 r l :=
    ⟨⟨(y 0).val, (y 0).isLt⟩, ⟨(y 1).val, (y 1).isLt⟩, eq_ix2 y⟩
  exact blockZ_apply m c t r l

/-- An index of the first output is in a point's block iff each coordinate is in the block's range on its axis. -/
private theorem mem_blkZ (t : Fin cfg0.N) (i : S63488x128.Idx) :
    i ∈ ((cfg0.win 1).blk t).view.set
      ↔ ∀ a : Fin 2, win0_1.index t a * S2048x128.size a ≤ (i a).val
          ∧ (i a).val < win0_1.index t a * S2048x128.size a + S2048x128.size a := by
  show i ∈ ((View.whole main_v3_0).slice (win0_1.rect t)).set ↔ _
  rw [View.set_slice_whole, Rect.mem_set_unit]
  exact Iff.rfl

/-- Every index of the first output is in some point's block: row `j₀` in the block of row block `j₀ / 2048`. -/
private theorem coverZ (i : S63488x128.Idx) :
    ∃ t : Fin cfg0.N, (cfg0.win 1).flush t = true ∧ i ∈ ((cfg0.win 1).blk t).view.set := by
  have hi0 : (i 0).val < 63488 := (i 0).isLt
  have hi1 : (i 1).val < 128 := (i 1).isLt
  obtain ⟨t, ht⟩ := idx_ontoZ ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_blkZ]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 128 ≤ (i 1).val ∧ (i 1).val < win0_1.index t (1 : Fin 2) * 128 + 128
    omega

/-- The first output array after the run: the clipped raw cells of the z's. -/
theorem finalZ (c : Dev nD) : (dats m 0 c).arrAt 1 cfg0.N = GZ (F := F) (V m c main_v2) :=
  (dats m 0 c).arrAt_eq_of_cover 1 (GZ (F := F) (V m c main_v2)) (fun t _ => flushedZ m c t) coverZ

/-! ## The second output: the columns -/

/-- Row `r`, lane `l` of what a point leaves in the second output's buffer is `GX` of the input array at the index
    the output's block places there: the input block's element `(0, r, l)` is the array's at row
    `2048 · (row block) + r`, the row block being the output's. -/
private theorem blockX_apply (c : Dev nD) (t : Fin cfg0.N) (r : Fin 2048) (l : Fin 128) :
    k0_pay2 (k0_pay4 (View.ld (iblk m c 0 t) r0_0)) (ix2 r l)
      = GX (F := F) (V m c main_v2) (((cfg0.win 2).blk t).view.emb (ix2 r l)) := by
  obtain ⟨e0, e2, -, e1, -, -, f1, -, le⟩ := idx_facts t
  refine (payX_apply (iblk m c 0 t) r l).trans ?_
  show clipCell (rawCell (F := F) (V m c main_v2 (((cfg0.win 0).blk t).view.emb (ix3 (0 : Fin 3) r l))))
    = clipCell (rawCell (F := F) (V m c main_v2 (ix3 (0 : Fin 3)
        (⟨((((cfg0.win 2).blk t).view.emb (ix2 r l)) 0).val, ((((cfg0.win 2).blk t).view.emb (ix2 r l)) 0).isLt⟩ : Fin 63488)
        (⟨((((cfg0.win 2).blk t).view.emb (ix2 r l)) 1).val, ((((cfg0.win 2).blk t).view.emb (ix2 r l)) 1).isLt⟩ : Fin 128))))
  refine congrArg (fun z => clipCell (rawCell (F := F) (V m c main_v2 z))) (funext fun a => Fin.ext ?_)
  match a with
  | ⟨0, _⟩ => show win0_0.index t (0 : Fin 3) * 3 + 1 * 0 = 0; omega
  | ⟨1, _⟩ => show win0_0.index t (1 : Fin 3) * 2048 + 1 * r.val = win0_2.index t (0 : Fin 2) * 2048 + 1 * r.val; omega
  | ⟨2, _⟩ => show win0_0.index t (2 : Fin 3) * 128 + 1 * l.val = win0_2.index t (1 : Fin 2) * 128 + 1 * l.val; omega

/-- What a point writes back to the second output is its block of `GX` of the input array. -/
private theorem flushedX (c : Dev nD) (t : Fin cfg0.N) :
    (dats m 0 c).flushed 2 t = ((cfg0.win 2).blk t).view.read (Elt F) (GX (F := F) (V m c main_v2)) := by
  show (cfg0.win 2).cut (grid0.coords t) ((dats m 0 c).after 2 t) = _
  rw [after0_2]
  unfold out0_2
  rw [View.canon_unit_zero zeroOffsets]
  funext y
  obtain ⟨r, l, rfl⟩ : ∃ (r : Fin 2048) (l : Fin 128), y = ix2 r l :=
    ⟨⟨(y 0).val, (y 0).isLt⟩, ⟨(y 1).val, (y 1).isLt⟩, eq_ix2 y⟩
  exact blockX_apply m c t r l

/-- An index of the second output is in a point's block iff each coordinate is in the block's range on its axis. -/
private theorem mem_blkX (t : Fin cfg0.N) (i : S63488x128.Idx) :
    i ∈ ((cfg0.win 2).blk t).view.set
      ↔ ∀ a : Fin 2, win0_2.index t a * S2048x128.size a ≤ (i a).val
          ∧ (i a).val < win0_2.index t a * S2048x128.size a + S2048x128.size a := by
  show i ∈ ((View.whole main_v3_1).slice (win0_2.rect t)).set ↔ _
  rw [View.set_slice_whole, Rect.mem_set_unit]
  exact Iff.rfl

/-- Every index of the second output is in some point's block: row `j₀` in the block of row block `j₀ / 2048`. -/
private theorem coverX (i : S63488x128.Idx) :
    ∃ t : Fin cfg0.N, (cfg0.win 2).flush t = true ∧ i ∈ ((cfg0.win 2).blk t).view.set := by
  have hi0 : (i 0).val < 63488 := (i 0).isLt
  have hi1 : (i 1).val < 128 := (i 1).isLt
  obtain ⟨t, ht⟩ := idx_ontoX ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blkX]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 128 ≤ (i 1).val ∧ (i 1).val < win0_2.index t (1 : Fin 2) * 128 + 128
    omega

/-- The second output array after the run: the clipped raw cells of the x's. -/
theorem finalX (c : Dev nD) : (dats m 0 c).arrAt 2 cfg0.N = GX (F := F) (V m c main_v2) :=
  (dats m 0 c).arrAt_eq_of_cover 2 (GX (F := F) (V m c main_v2)) (fun t _ => flushedX m c t) coverX

/-! ## The third output: the weights -/

/-- Row `r`, lane `l` of what a point leaves in the third output's buffer is `GW` of the input array at the index
    the output's block places there: the input block's elements `(0, r, l)`, `(1, r, l)`, `(2, r, l)` are the
    array's at row `2048 · (row block) + r` of slabs 0, 1 and 2, the row block being the output's. -/
private theorem blockW_apply (c : Dev nD) (t : Fin cfg0.N) (r : Fin 2048) (l : Fin 128) :
    k0_pay5 (View.ld (iblk m c 0 t) r0_0) (View.ld (iblk m c 0 t) r0_1) (View.ld (iblk m c 0 t) r0_2) (ix2 r l)
      = GW (F := F) (V m c main_v2) (((cfg0.win 3).blk t).view.emb (ix2 r l)) := by
  obtain ⟨e0, e2, -, -, e1, -, -, f1, le⟩ := idx_facts t
  refine (payW_apply (iblk m c 0 t) r l).trans ?_
  have slab : ∀ k : Fin 3, ((cfg0.win 0).blk t).view.emb (ix3 k r l)
      = ix3 k
        (⟨((((cfg0.win 3).blk t).view.emb (ix2 r l)) 0).val, ((((cfg0.win 3).blk t).view.emb (ix2 r l)) 0).isLt⟩ : Fin 63488)
        (⟨((((cfg0.win 3).blk t).view.emb (ix2 r l)) 1).val, ((((cfg0.win 3).blk t).view.emb (ix2 r l)) 1).isLt⟩ : Fin 128) := by
    intro k
    have hk : k.val < 3 := k.isLt
    funext a
    apply Fin.ext
    match a with
    | ⟨0, _⟩ => show win0_0.index t (0 : Fin 3) * 3 + 1 * k.val = k.val; omega
    | ⟨1, _⟩ => show win0_0.index t (1 : Fin 3) * 2048 + 1 * r.val = win0_3.index t (0 : Fin 2) * 2048 + 1 * r.val; omega
    | ⟨2, _⟩ => show win0_0.index t (2 : Fin 3) * 128 + 1 * l.val = win0_3.index t (1 : Fin 2) * 128 + 1 * l.val; omega
  show weight (F := F) (V m c main_v2 (((cfg0.win 0).blk t).view.emb (ix3 (0 : Fin 3) r l)))
      (V m c main_v2 (((cfg0.win 0).blk t).view.emb (ix3 (1 : Fin 3) r l)))
      (V m c main_v2 (((cfg0.win 0).blk t).view.emb (ix3 (2 : Fin 3) r l))) = _
  rw [slab 0, slab 1, slab 2]

/-- What a point writes back to the third output is its block of `GW` of the input array. -/
private theorem flushedW (c : Dev nD) (t : Fin cfg0.N) :
    (dats m 0 c).flushed 3 t = ((cfg0.win 3).blk t).view.read (Elt F) (GW (F := F) (V m c main_v2)) := by
  show (cfg0.win 3).cut (grid0.coords t) ((dats m 0 c).after 3 t) = _
  rw [after0_3]
  unfold out0_3
  rw [View.canon_unit_zero zeroOffsets]
  funext y
  obtain ⟨r, l, rfl⟩ : ∃ (r : Fin 2048) (l : Fin 128), y = ix2 r l :=
    ⟨⟨(y 0).val, (y 0).isLt⟩, ⟨(y 1).val, (y 1).isLt⟩, eq_ix2 y⟩
  exact blockW_apply m c t r l

/-- An index of the third output is in a point's block iff each coordinate is in the block's range on its axis. -/
private theorem mem_blkW (t : Fin cfg0.N) (i : S63488x128.Idx) :
    i ∈ ((cfg0.win 3).blk t).view.set
      ↔ ∀ a : Fin 2, win0_3.index t a * S2048x128.size a ≤ (i a).val
          ∧ (i a).val < win0_3.index t a * S2048x128.size a + S2048x128.size a := by
  show i ∈ ((View.whole main_v3_2).slice (win0_3.rect t)).set ↔ _
  rw [View.set_slice_whole, Rect.mem_set_unit]
  exact Iff.rfl

/-- Every index of the third output is in some point's block: row `j₀` in the block of row block `j₀ / 2048`. -/
private theorem coverW (i : S63488x128.Idx) :
    ∃ t : Fin cfg0.N, (cfg0.win 3).flush t = true ∧ i ∈ ((cfg0.win 3).blk t).view.set := by
  have hi0 : (i 0).val < 63488 := (i 0).isLt
  have hi1 : (i 1).val < 128 := (i 1).isLt
  obtain ⟨t, ht⟩ := idx_ontoW ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blkW]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 128 ≤ (i 1).val ∧ (i 1).val < win0_3.index t (1 : Fin 2) * 128 + 128
    omega

/-- The third output array after the run: the weights. -/
theorem finalW (c : Dev nD) : (dats m 0 c).arrAt 3 cfg0.N = GW (F := F) (V m c main_v2) :=
  (dats m 0 c).arrAt_eq_of_cover 3 (GW (F := F) (V m c main_v2)) (fun t _ => flushedW m c t) coverW

end Cert.KernelIdeal.Blocks

end
-- ==== Proof.KernelInput.lean ====
/-
  The array the region reads, index by index.

  Before the region the host transposes the 8,000,000 × 3 points to 3 × 8,000,000, pads each of the three rows
  with 126,464 zeros (the pad value is the integer zero cast to a float) and folds each row into 63488 × 128. So
  entry (k, r, l) of the region's input is coordinate k of point 128 r + l when that point exists, and the pad
  value when it does not.
-/
import proofs.«126312_j39281770889515_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.Input

open Cert.KernelIdeal Cert.KernelIdeal.Gen Cert.KernelIdeal.Facts₀
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- A transport along an equation between a thing and itself is the identity. -/
private theorem eqRec_self {α : Sort _} {a : α} {motive : (b : α) → a = b → Sort _} (x : motive a rfl) (h : a = a) :
    @Eq.rec α a motive x a h = x := rfl

/-- The region's input as one term of the launched points: the transpose, padded with the converted integer zero,
    folded. The host operations' results are composed one after the other; the transports between a buffer's
    recorded type and the literal type of the value written to it are all along equations that hold by
    computation, so each is the identity, removed one at a time (the two sides are never compared as whole
    arrays). -/
private theorem V_main_v2_eq (c : Dev nD) :
    (V m c main_v2 : S3x63488x128.Idx → Elt F .f32) = shapeCast S3x63488x128 (pad S3x8126464 ![0, 0] ![0, 126464] ![0, 0] (transpose S3x8000000 [1, 0] (m ((c : Thread nD τ).loc main_arg0)) Gen.transposes_S8000000x3_S3x8000000_1_0) (sitofp .f32 (constantI S_ 32 0#32)) Gen.pads_S3x8000000_S3x8126464_000_01264640 Gen.h_S_) Gen.shapeCasts_S3x8126464_S3x63488x128 := by
  dsimp only [V, V0]
  simp only [hostOps0, hostOps0_1, hostOps0_2, List.flatten_cons, List.flatten_nil, List.append_nil, List.cons_append, List.nil_append]
  after_results
  funext i
  refine (eqRec_self (α := EltTy) (a := main_v1.ty.elt) (motive := fun x _ => Elt F x) _ rfl).trans ?_
  dsimp only [TRef.toBuf, TRef.ofBuf]
  erw [cast_eq, cast_eq, cast_eq, cast_eq, cast_eq]
  rfl

/-- The composed term read at (k, r, l), for any array `x` of points: the fold keeps the row-major position, so
    the padded row is read at 128 r + l; below 8,000,000 that is inside the operand (no padding in front, none
    between entries) and the transpose swaps the two coordinates; from 8,000,000 on it is in the padding behind. -/
private theorem read_apply (x : S8000000x3.Idx → Elt F .f32) (k : Fin 3) (r : Fin 63488) (l : Fin 128) :
    shapeCast S3x63488x128 (pad S3x8126464 ![0, 0] ![0, 126464] ![0, 0] (transpose S3x8000000 [1, 0] x Gen.transposes_S8000000x3_S3x8000000_1_0) (sitofp .f32 (constantI S_ 32 0#32)) Gen.pads_S3x8000000_S3x8126464_000_01264640 Gen.h_S_) Gen.shapeCasts_S3x8126464_S3x63488x128 (ix3 k r l)
      = if h : r.val * 128 + l.val < 8000000 then x (ix2 (⟨r.val * 128 + l.val, h⟩ : Fin 8000000) k)
        else FloatOps.sitofp .f32 (0#32 : BitVec 32) := by
  have hr : r.val < 63488 := r.isLt
  have hl : l.val < 128 := l.isLt
  have hk : k.val < 3 := k.isLt
  have hpos : r.val * 128 + l.val < 8126464 := by omega
  -- the fold of a row into 63488 × 128 keeps the row-major position
  refine (shapeCast_apply _ _ (ix3 k r l) (ix2 k (⟨r.val * 128 + l.val, hpos⟩ : Fin 8126464)) (by
    rw [Shape.rowMajor_val_two, Shape.rowMajor_val_three]
    show k.val * 8126464 + (r.val * 128 + l.val) = (k.val * 63488 + r.val) * 128 + l.val
    omega)).trans ?_
  by_cases h : r.val * 128 + l.val < 8000000
  · rw [dif_pos h]
    -- inside the operand: no padding in front and no interior padding, so the coordinates are kept
    refine (pad_apply_of_inside _ _ _ _ _ _ _ _ (ix2 k (⟨r.val * 128 + l.val, h⟩ : Fin 8000000)) (fun a =>
      match a with
      | ⟨0, _⟩ => by show k.val = 0 + k.val * (0 + 1); omega
      | ⟨1, _⟩ => by show r.val * 128 + l.val = 0 + (r.val * 128 + l.val) * (0 + 1); omega)).trans ?_
    -- the transpose swaps the two coordinates
    exact transpose_apply _ _ _ _ (ix2 (⟨r.val * 128 + l.val, h⟩ : Fin 8000000) k) (fun b =>
      match b with
      | ⟨0, _⟩ => rfl
      | ⟨1, _⟩ => rfl)
  · rw [dif_neg h]
    -- past the last point: the second coordinate is in the high padding
    refine (pad_apply_of_not_inside _ _ _ _ _ _ _ _ (1 : Fin 2) (by
      show ¬(0 ≤ r.val * 128 + l.val ∧ (r.val * 128 + l.val - 0) % (0 + 1) = 0 ∧ (r.val * 128 + l.val - 0) / (0 + 1) < 8000000)
      omega)).trans ?_
    rfl

/-- The region's input at slab `k`, row `r`, lane `l`: coordinate `k` of point `128 r + l`, or the pad value past the
    last point. -/
theorem V_main_v2_apply (c : Dev nD) (k : Fin 3) (r : Fin 63488) (l : Fin 128) :
    (V m c main_v2 : S3x63488x128.Idx → Elt F .f32) (ix3 k r l)
      = if h : r.val * 128 + l.val < 8000000 then
          (m ((c : Thread nD τ).loc main_arg0) : S8000000x3.Idx → Elt F .f32) (ix2 (⟨r.val * 128 + l.val, h⟩ : Fin 8000000) k)
        else FloatOps.sitofp .f32 (0#32 : BitVec 32) :=
  (congrFun (V_main_v2_eq m c) (ix3 k r l)).trans (read_apply _ k r l)

end Cert.KernelIdeal.Input

end
-- ==== Proof.KernelHist.lean ====
/-
  The kernel program's result is the obstacle map of its argument.

  After the region the host flattens the three output arrays to one entry per padded point, reads each clipped
  cell the way a scatter reads an index, lays the two coordinates side by side and scatters the weights into a
  zero map. Padded point p is point p of the argument when p < 8,000,000 and a point at the origin otherwise; a
  point at the origin has height zero and so weighs nothing. The scatter read as a sum over the padded points is
  therefore the sum over the argument's points: the map.
-/
import proofs.«126312_j39281770889515_1_alg».proof.Proof.Gen.KernelIdeal.Frame
import proofs.«126312_j39281770889515_1_alg».proof.Proof.CellSpec
import proofs.«126312_j39281770889515_1_alg».proof.Proof.ScatterCells
import proofs.«126312_j39281770889515_1_alg».proof.Proof.KernelBlocks
import proofs.«126312_j39281770889515_1_alg».proof.Proof.KernelInput
import Idealize.ShloMosaic.Lib.StableHlo.Run
import Idealize.ShloMosaic.Lib.Pipeline.Value
import Idealize.ShloMosaic.Lib.ValueIdx

set_option maxRecDepth 16384

noncomputable section

namespace Cert.KernelIdeal.Hist

open Cert.KernelIdeal Cert.KernelIdeal.Gen Cert.KernelIdeal.Facts₀ Cert.CellSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The points as launched. -/
abbrev pts (c : Dev nD) : S8000000x3.Idx → EReal := m ((c : Thread nD τ).loc main_arg0)

/-- The region's input as the region finds it. -/
abbrev slabs (c : Dev nD) : S3x63488x128.Idx → EReal := V m c main_v2

/-- Row and lane of padded point `p`. -/
abbrev rowOf (p : Fin 8126464) : Fin 63488 := ⟨p.val / 128, by have := p.isLt; omega⟩
abbrev laneOf (p : Fin 8126464) : Fin 128 := ⟨p.val % 128, Nat.mod_lt _ (by norm_num)⟩

/-- Coordinate `k` of padded point `p`: the argument's when the point exists, zero past the last point. -/
theorem slab_at (c : Dev nD) (k : Fin 3) (p : Fin 8126464) :
    slabs m c (ix3 k (rowOf p) (laneOf p))
      = if h : p.val < 8000000 then pts m c (ix2 (⟨p.val, h⟩ : Fin 8000000) k) else (0 : EReal) := by
  unfold slabs
  rw [Cert.KernelIdeal.Input.V_main_v2_apply]
  have e : (rowOf p).val * 128 + (laneOf p).val = p.val := by
    show p.val / 128 * 128 + p.val % 128 = p.val
    omega
  by_cases h : p.val < 8000000
  · rw [dif_pos (by rw [e]; exact h), dif_pos h]
    congr 1
    funext a
    match a with
    | ⟨0, _⟩ => exact Fin.ext e
    | ⟨1, _⟩ => rfl
  · rw [dif_neg (by rw [e]; exact h), dif_neg h]
    show (((0#32 : BitVec 32).toInt : ℝ) : EReal) = 0
    simp

/-- The flattened rows: entry `p` is the clipped raw cell of padded point `p`'s z. -/
theorem flatZ (c : Dev nD) (p : Fin 8126464) :
    shapeCast S8126464 (Cert.KernelIdeal.Blocks.GZ (F := Ideal) (slabs m c)) Facts₀.shapeCasts_S63488x128_S8126464 (ix1 p)
      = clipCell (rawCell (F := Ideal) (slabs m c (ix3 (2 : Fin 3) (rowOf p) (laneOf p)))) := by
  refine (shapeCast_apply _ Facts₀.shapeCasts_S63488x128_S8126464 (ix1 p) (ix2 (rowOf p) (laneOf p)) ?_).trans rfl
  rw [Shape.rowMajor_val_two, Shape.rowMajor_val_one]
  show p.val / 128 * 128 + p.val % 128 = p.val
  omega

/-- The flattened columns: entry `p` is the clipped raw cell of padded point `p`'s x. -/
theorem flatX (c : Dev nD) (p : Fin 8126464) :
    shapeCast S8126464 (Cert.KernelIdeal.Blocks.GX (F := Ideal) (slabs m c)) Facts₀.shapeCasts_S63488x128_S8126464 (ix1 p)
      = clipCell (rawCell (F := Ideal) (slabs m c (ix3 (0 : Fin 3) (rowOf p) (laneOf p)))) := by
  refine (shapeCast_apply _ Facts₀.shapeCasts_S63488x128_S8126464 (ix1 p) (ix2 (rowOf p) (laneOf p)) ?_).trans rfl
  rw [Shape.rowMajor_val_two, Shape.rowMajor_val_one]
  show p.val / 128 * 128 + p.val % 128 = p.val
  omega

/-- The flattened weights: entry `p` is padded point `p`'s weight. -/
theorem flatW (c : Dev nD) (p : Fin 8126464) :
    shapeCast S8126464 (Cert.KernelIdeal.Blocks.GW (F := Ideal) (slabs m c)) Facts₀.shapeCasts_S63488x128_S8126464 (ix1 p)
      = weight (F := Ideal) (slabs m c (ix3 (0 : Fin 3) (rowOf p) (laneOf p))) (slabs m c (ix3 (1 : Fin 3) (rowOf p) (laneOf p)))
          (slabs m c (ix3 (2 : Fin 3) (rowOf p) (laneOf p))) := by
  refine (shapeCast_apply _ Facts₀.shapeCasts_S63488x128_S8126464 (ix1 p) (ix2 (rowOf p) (laneOf p)) ?_).trans rfl
  rw [Shape.rowMajor_val_two, Shape.rowMajor_val_one]
  show p.val / 128 * 128 + p.val % 128 = p.val
  omega

/-- The map from the three flattened arrays: if entry `q` of the rows, of the columns and of the weights are padded
    point `q`'s clipped cells and weight, the host's last lines leave the obstacle map of the points. The scatter is a
    sum over the padded points; the first 8,000,000 are the argument's points, the rest lie at the origin and weigh
    nothing. -/
theorem map_of_flat (c : Dev nD) (AZ AX : IVec S8126464 32) (AW : FVec Ideal S8126464 .f32)
    (hZ : ∀ q : Fin 8126464, AZ (ix1 q) = clipCell (rawCell (F := Ideal) (slabs m c (ix3 (2 : Fin 3) (rowOf q) (laneOf q)))))
    (hX : ∀ q : Fin 8126464, AX (ix1 q) = clipCell (rawCell (F := Ideal) (slabs m c (ix3 (0 : Fin 3) (rowOf q) (laneOf q)))))
    (hW : ∀ q : Fin 8126464, AW (ix1 q) = weight (F := Ideal) (slabs m c (ix3 (0 : Fin 3) (rowOf q) (laneOf q)))
        (slabs m c (ix3 (1 : Fin 3) (rowOf q) (laneOf q))) (slabs m c (ix3 (2 : Fin 3) (rowOf q) (laneOf q)))) :
    Host.scatterAdd (F := Ideal) scatter_S400x400_S8126464x2_S8126464_n_01_01_1
      (broadcastInDim S400x400 ![] Facts₀.bcast_S_S400x400 (constant (F := Ideal) S_ .f32 0x00000000#32))
      (concatenate S8126464x2 1
        [⟨S8126464x1, broadcastInDim S8126464x1 ![0] Facts₀.bcast_S8126464_S8126464x1_0
            (select (cmpi .slt AZ (broadcastInDim S8126464 ![] Facts₀.bcast_S_S8126464 (constantI S_ 32 0#32)))
              (addi AZ (broadcastInDim S8126464 ![] Facts₀.bcast_S_S8126464 (constantI S_ 32 400#32))) AZ)⟩,
         ⟨S8126464x1, broadcastInDim S8126464x1 ![0] Facts₀.bcast_S8126464_S8126464x1_0
            (select (cmpi .slt AX (broadcastInDim S8126464 ![] Facts₀.bcast_S_S8126464 (constantI S_ 32 0#32)))
              (addi AX (broadcastInDim S8126464 ![] Facts₀.bcast_S_S8126464 (constantI S_ 32 400#32))) AX)⟩]
        Facts₀.concatenates_S8126464x1_S8126464x1_S8126464x2_d1)
      AW
    = hist (pts m c) := by
  refine (Cert.ScatterCells.tailK_eq _ _ _).trans ?_
  funext i
  unfold hist
  refine congrArg (fun s : EReal => (0 : EReal) + s) ?_
  refine Cert.ScatterCells.sum_pad _ _ _ _ ?_ ?_ ?_
  · intro p
    have hz := hZ ⟨p.val, by have := p.isLt; omega⟩
    have hx := hX ⟨p.val, by have := p.isLt; omega⟩
    rw [slab_at, dif_pos (show p.val < 8000000 from p.isLt)] at hz hx
    show ((wrapCell (AZ (ix1 (⟨p.val, _⟩ : Fin 8126464)))).toInt = _ ∧ (wrapCell (AX (ix1 (⟨p.val, _⟩ : Fin 8126464)))).toInt = _) ↔ _
    rw [hz, hx]
    exact Iff.rfl
  · intro p
    have hw := hW ⟨p.val, by have := p.isLt; omega⟩
    have hp : p.val < 8000000 := p.isLt
    rw [slab_at, slab_at, slab_at, dif_pos hp, dif_pos hp, dif_pos hp] at hw
    exact hw
  · intro p hp
    rw [hW p, slab_at m c 1 p, dif_neg (by omega)]
    exact weight_zero_height _ _

set_option maxHeartbeats 40000000 in
/-- What the lines after the region leave in the result buffer: the obstacle map of the points as launched. The three
    arrays the region wrote are the pointwise functions of its input; flattened, entry `q` of each belongs to padded
    point `q`. -/
theorem tail_eq (c : Dev nD) :
    Pipeline.afterTail₀ cfgs (dats m) 0 (V0 m) [hostOps1] c main_v21 = hist (m ((c : Thread nD τ).loc main_arg0)) := by
  have hZ : Pipeline.withArrays (cfgs 0).spec c (V0 m c) (fun w => (dats m 0 c).arrAt w (cfgs 0).N) (Proc.devRef .tc main_v3_0)
      = Cert.KernelIdeal.Blocks.GZ (F := Ideal) (slabs m c) :=
    (Pipeline.withArrays_arr spec0 launch0.win.arr_inj c _ _ 1).trans (Cert.KernelIdeal.Blocks.finalZ m c)
  have hX : Pipeline.withArrays (cfgs 0).spec c (V0 m c) (fun w => (dats m 0 c).arrAt w (cfgs 0).N) (Proc.devRef .tc main_v3_1)
      = Cert.KernelIdeal.Blocks.GX (F := Ideal) (slabs m c) :=
    (Pipeline.withArrays_arr spec0 launch0.win.arr_inj c _ _ 2).trans (Cert.KernelIdeal.Blocks.finalX m c)
  have hW : Pipeline.withArrays (cfgs 0).spec c (V0 m c) (fun w => (dats m 0 c).arrAt w (cfgs 0).N) (Proc.devRef .tc main_v3_2)
      = Cert.KernelIdeal.Blocks.GW (F := Ideal) (slabs m c) :=
    (Pipeline.withArrays_arr spec0 launch0.win.arr_inj c _ _ 3).trans (Cert.KernelIdeal.Blocks.finalW m c)
  unfold Pipeline.afterTail₀
  show StableHlo.after hostOps1 _ (Proc.devRef .tc main_v21) = _
  after_results
  refine map_of_flat m c _ _ _ ?_ ?_ ?_
  · intro q
    exact (congrArg (fun X => shapeCast S8126464 X Facts₀.shapeCasts_S63488x128_S8126464 (ix1 q)) hZ).trans (flatZ m c q)
  · intro q
    exact (congrArg (fun X => shapeCast S8126464 X Facts₀.shapeCasts_S63488x128_S8126464 (ix1 q)) hX).trans (flatX m c q)
  · intro q
    exact (congrArg (fun X => shapeCast S8126464 X Facts₀.shapeCasts_S63488x128_S8126464 (ix1 q)) hW).trans (flatW m c q)

/-- The kernel program's run at the extended reals, its result named: the obstacle map; the points unchanged. -/
theorem run : θ_run defs (onTc (τ := τ) (main (F := Ideal))) ⟨m, fun _ => 0, ρ⟩ fun r => ∀ c : Dev nD,
      r.2.mem ((c.tc : Thread nD τ).loc main_v21) = hist (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c)⟩)
    (run_main m ρ)

end Cert.KernelIdeal.Hist

end
-- ==== Proof.lean ====
/- The two programs compute one obstacle map.

   The kernel program transposes and zero-pads the points, computes every padded point's two grid cells and its
   weight inside one pipelined region, and scatters the weights into a zero map on the host; the reference does the
   same per-point arithmetic on the host over the points themselves. Over the extended reals each result is, at
   every cell, the sum of the weights of the points that land there (Proof/CellSpec.lean's `hist`): the reference's
   by reading its run one operation at a time (Proof/RefHist.lean), the kernel's by reading the region's three
   output arrays block by block and its host lines around them (Proof/KernelBlocks.lean, Proof/KernelInput.lean,
   Proof/KernelHist.lean); the padded points weigh nothing, so they do not change the sum
   (Proof/ScatterCells.lean). The three frames are the programs' runs with their results dropped, and the ideal
   pass rewrote nothing. -/
import proofs.«126312_j39281770889515_1_alg».proof.Defs
import proofs.«126312_j39281770889515_1_alg».proof.Proof.Gen.Kernel
import proofs.«126312_j39281770889515_1_alg».proof.Proof.Gen.Kernel.Skeleton
import proofs.«126312_j39281770889515_1_alg».proof.Proof.Gen.Kernel.Launch
import proofs.«126312_j39281770889515_1_alg».proof.Proof.Gen.Kernel.Points
import proofs.«126312_j39281770889515_1_alg».proof.Proof.Gen.Kernel.Frame
import proofs.«126312_j39281770889515_1_alg».proof.Proof.Gen.KernelIdeal
import proofs.«126312_j39281770889515_1_alg».proof.Proof.Gen.KernelIdeal.Skeleton
import proofs.«126312_j39281770889515_1_alg».proof.Proof.Gen.KernelIdeal.Launch
import proofs.«126312_j39281770889515_1_alg».proof.Proof.Gen.KernelIdeal.Points
import proofs.«126312_j39281770889515_1_alg».proof.Proof.Gen.KernelIdeal.Frame
import proofs.«126312_j39281770889515_1_alg».proof.Proof.Gen.ReferenceIdeal
import proofs.«126312_j39281770889515_1_alg».proof.Proof.Gen.Pre_finite_inputs
import proofs.«126312_j39281770889515_1_alg».proof.Proof.RefHist
import proofs.«126312_j39281770889515_1_alg».proof.Proof.KernelHist
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the obstacle map of the shared points in their result buffers. -/
theorem algebraic : Cert.algebraic_KernelIdeal_ReferenceIdeal := by
  intro m ρ m' ρ' _ hagree
  refine ⟨fun c => Cert.CellSpec.hist (m ((c.tc : Thread Cert.KernelIdeal.nD Cert.KernelIdeal.τ).loc Cert.KernelIdeal.main_arg0)),
    Cert.KernelIdeal.Hist.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, Cert.ReferenceIdeal.Hist.ref_hist, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
